-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S1024 : Shape := ⟨1, ![1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4x8192x1024 .f32) (main_arg1 : FVec F S1024 .f32) (main_arg2 : FVec F S1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S4x8192x1024 : Shape := ⟨3, ![4, 8192, 1024]⟩
abbrev S1024 : Shape := ⟨1, ![1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 6
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024, .f32⟩
  | .hbm, ⟨3, _⟩ => ⟨S32768x1024, .f32⟩
  | .hbm, ⟨4, _⟩ => ⟨S1x1024, .f32⟩
  | .hbm, ⟨5, _⟩ => ⟨S1x1024, .f32⟩
  | .hbm, ⟨6, _⟩ => ⟨S32768x1024, .f32⟩
  | .hbm, ⟨7, _⟩ => ⟨S4x8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x8192x1024_S32768x1024 : S4x8192x1024.ShapeCasts S32768x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S32768x1024_S4x8192x1024 : S32768x1024.ShapeCasts S4x8192x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S32768x1024.size a
  hwx0_3 : ∀ i : grid0.Coords, EltTy.bits .f32 = 32 ∨ (Rect.block (s := S32768x1024) S512x1024.size (cc0_transform_3 i) (hinb0_3 i)).WholeWords (EltTy.packing .f32)

variable [Facts₀]

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024, .f32⟩
  | .hbm, ⟨3, _⟩ => ⟨S4x8192x1024, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .i32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S4x8192x1024, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x8192, .f32⟩
  | .hbm, ⟨25, _⟩ => ⟨S4x8192x1, .f32⟩
  | .hbm, ⟨26, _⟩ => ⟨S4x8192x1, .f32⟩
  | .hbm, ⟨27, _⟩ => ⟨S4x8192x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S4x8192x1, .f32⟩
  | .hbm, ⟨33, _⟩ => ⟨S4x8192x1, .f32⟩
  | .hbm, ⟨34, _⟩ => ⟨S4x8192x1024, .f32⟩
  | .hbm, ⟨35, _⟩ => ⟨S4x8192x1024, .f32⟩
  | .hbm, ⟨36, _⟩ => ⟨S_, .f32⟩
  | .hbm, ⟨37, _⟩ => ⟨S4x8192x1, .f32⟩
  | .hbm, ⟨38, _⟩ => ⟨S4x8192x1, .f32⟩
  | .hbm, ⟨39, _⟩ => ⟨S4x8192x1, .f32⟩
  | .hbm, ⟨40, _⟩ => ⟨S4x8192x1024, .f32⟩
  | .hbm, ⟨41, _⟩ => ⟨S4x8192x1024, .f32⟩
  | .hbm, ⟨42, _⟩ => ⟨S1x1x1024, .f32⟩
  | .hbm, ⟨43, _⟩ => ⟨S4x8192x1024, .f32⟩
  | .hbm, ⟨44, _⟩ => ⟨S4x8192x1024, .f32⟩
  | .hbm, ⟨45, _⟩ => ⟨S1x1x1024, .f32⟩
  | .hbm, ⟨46, _⟩ => ⟨S4x8192x1024, .f32⟩
  | .hbm, ⟨47, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst_1 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩

abbrev nD : Nat := 1
abbrev τ : Topo := Topo.v7x

variable {F : FTy → Type} [FloatOps F]

class Facts₀ : Prop where
  reducesTo_S4x8192x1024_S4x8192_d2 : S4x8192x1024.ReducesTo [2] S4x8192
  h_S_ : 0 < S_.numel
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x1024_0_1_2 : S4x8192x1.BroadcastsInDim S4x8192x1024 (![0, 1, 2] : Fin 3 → Fin S4x8192x1024.rank)
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)

variable [Facts₀]

class Facts : Prop extends Facts₀ where

variable [Facts]
-- ==== Proof.Spec.lean ====
/-
  The layer normalisation of a doubled row, written twice over the extended reals: once the way the kernel's body
  computes it (one pass: the variance as the mean of the squares less the square of the mean, then a product with the
  reciprocal square root) and once the way the reference computes it (two passes: the variance as the mean of the
  squared deviations, then a quotient by the square root). Both take a row `y : Fin 1024 → EReal` (already doubled,
  `y j = x j + x j`), the entry `yj` being normalised, and the scale and shift `g`, `b` of its column.
  The whole-array results are these row functions read at the row of each index.
-/
import Idealize.ShloMosaic.PureOps.Ideal
import Idealize.ShloMosaic.Lib.ValueIdx

noncomputable section

namespace Cert.LN

open Idealize.ShloMosaic Idealize.ShloMosaic.ValueIdx

/-- The input's shape [4, 8192, 1024] and the scale's and shift's shape [1024]. -/
abbrev SX : Shape := ⟨3, ![4, 8192, 1024]⟩
abbrev SV : Shape := ⟨1, ![1024]⟩

/-- The row length as both programs write it: the f32 pattern of 1024. -/
def c1024 : EReal := Ideal.ofBits .f32 0x44800000#32
/-- The variance's offset as both programs write it: the f32 pattern nearest 1e-12. -/
def eps : EReal := Ideal.ofBits .f32 0x2B8CBCCC#32

/-- The mean of a row: its sum over the row length. -/
def mean (y : Fin 1024 → EReal) : EReal := Ideal.div (∑ k, y k) c1024

/-- One pass: mean of the squares less the square of the mean. -/
def varK (y : Fin 1024 → EReal) : EReal := Ideal.div (∑ k, y k * y k) c1024 - mean y * mean y

/-- Two passes: mean of the squared deviations from the mean. -/
def varR (y : Fin 1024 → EReal) : EReal := Ideal.div (∑ k, (y k - mean y) * (y k - mean y)) c1024

/-- The kernel's normalised entry: deviation times reciprocal square root, scaled and shifted. -/
def rowK (y : Fin 1024 → EReal) (yj g b : EReal) : EReal :=
  (yj - mean y) * Ideal.rsqrt (varK y + eps) * g + b

/-- The reference's normalised entry: deviation over square root, scaled and shifted. -/
def rowR (y : Fin 1024 → EReal) (yj g b : EReal) : EReal :=
  Ideal.div (yj - mean y) (Ideal.sqrt (varR y + eps)) * g + b

/-- Row (b, s) of the doubled input. -/
def dblRow (x : SX.Idx → EReal) (b : Fin 4) (s : Fin 8192) : Fin 1024 → EReal :=
  fun k => x (ix3 b s k) + x (ix3 b s k)

/-- The kernel's whole result as a function of the three argument arrays. -/
def outK (x : SX.Idx → EReal) (g bt : SV.Idx → EReal) : SX.Idx → EReal := fun i =>
  rowK (dblRow x (i 0) (i 1)) (x i + x i) (g (ix1 (i 2))) (bt (ix1 (i 2)))

/-- The reference's whole result as a function of the three argument arrays. -/
def outR (x : SX.Idx → EReal) (g bt : SV.Idx → EReal) : SX.Idx → EReal := fun i =>
  rowR (dblRow x (i 0) (i 1)) (x i + x i) (g (ix1 (i 2))) (bt (ix1 (i 2)))

theorem outK_ix3 (x : SX.Idx → EReal) (g bt : SV.Idx → EReal) (b : Fin 4) (s : Fin 8192) (j : Fin 1024) :
    outK x g bt (ix3 b s j) = rowK (dblRow x b s) (x (ix3 b s j) + x (ix3 b s j)) (g (ix1 j)) (bt (ix1 j)) := rfl

theorem outR_ix3 (x : SX.Idx → EReal) (g bt : SV.Idx → EReal) (b : Fin 4) (s : Fin 8192) (j : Fin 1024) :
    outR x g bt (ix3 b s j) = rowR (dblRow x b s) (x (ix3 b s j) + x (ix3 b s j)) (g (ix1 j)) (bt (ix1 j)) := rfl

end Cert.LN

end
-- ==== Proof.Consts.lean ====
/-
  The two float patterns both programs spell, as the extended reals they denote: the row length 1024 exactly, and the
  variance's offset, the positive dyadic 9223372 · 2⁻⁶³ (the binary32 number nearest 10⁻¹²). Only its sign matters.
-/
import proofs.«105205_g39994735460779_cont_8to1_b_608_2_alg».proof.Proof.Spec

noncomputable section

namespace Cert.LN

open Idealize.ShloMosaic

/-- The pattern 0x44800000 denotes the real 1024. -/
theorem c1024_eq : c1024 = ((1024 : ℝ) : EReal) := by
  simp [c1024, Ideal.ofBits, Ideal.ieee, -EReal.coe_mul]; norm_num

/-- The pattern 0x2B8CBCCC denotes a positive real. -/
theorem eps_pos : ∃ e : ℝ, 0 < e ∧ eps = (e : EReal) := by
  refine ⟨(9223372 : ℝ) * (2 : ℝ) ^ (-63 : ℤ), by positivity, ?_⟩
  simp [eps, Ideal.ofBits, Ideal.ieee, -EReal.coe_mul]

end Cert.LN

end
-- ==== Proof.RowLaw.lean ====
/-
  The two ways of normalising a row agree on a row of real numbers.

  Over the reals, with μ the mean of z₀ … z₁₀₂₃: the mean of the squares less μ² is the mean of the squared deviations
  (expand (z − μ)² and use Σ z = 1024 μ), and that number is nonnegative, so adding the positive offset gives a positive
  real t. At a positive real the reciprocal square root is the inverse of the square root, and a quotient by the nonzero
  real √t is the product with its inverse: deviation · rsqrt t = deviation / √t for ANY extended-real deviation.
  The scale and the shift are applied alike on both sides, so nothing is asked of them.
-/
import proofs.«105205_g39994735460779_cont_8to1_b_608_2_alg».proof.Proof.Spec
import proofs.«105205_g39994735460779_cont_8to1_b_608_2_alg».proof.Proof.Consts

noncomputable section

namespace Cert.LN

open Idealize.ShloMosaic

/-- A finite sum of reals, coerced term by term, is the coercion of the sum. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Division of a real by the row length, as a real. -/
theorem div_c1024 (r : ℝ) : Ideal.div (r : EReal) c1024 = ((r / 1024 : ℝ) : EReal) := by
  rw [c1024_eq, Ideal.div_coe (by norm_num : (1024 : ℝ) ≠ 0), ← EReal.coe_mul]
  congr 1; ring

/-- The variance identity over the reals. -/
theorem real_var (z : Fin 1024 → ℝ) :
    (∑ k, z k * z k) / 1024 - (∑ k, z k) / 1024 * ((∑ k, z k) / 1024)
      = (∑ k, (z k - (∑ k, z k) / 1024) * (z k - (∑ k, z k) / 1024)) / 1024 := by
  set μ := (∑ k, z k) / 1024 with hμ
  have hS : ∑ k, z k = 1024 * μ := by rw [hμ]; ring
  have h : ∀ k, (z k - μ) * (z k - μ) = z k * z k - 2 * μ * z k + μ * μ := fun k => by ring
  simp only [h, Finset.sum_add_distrib, Finset.sum_sub_distrib, ← Finset.mul_sum, Finset.sum_const, Finset.card_univ,
    Fintype.card_fin, nsmul_eq_mul, hS]
  push_cast
  ring

/-- The mean of a real row. -/
theorem mean_coe (z : Fin 1024 → ℝ) : mean (fun k => (z k : EReal)) = (((∑ k, z k) / 1024 : ℝ) : EReal) := by
  unfold mean; rw [coe_sum, div_c1024]

/-- The one-pass variance of a real row, as a real. -/
theorem varK_coe (z : Fin 1024 → ℝ) : varK (fun k => (z k : EReal))
    = (((∑ k, z k * z k) / 1024 - (∑ k, z k) / 1024 * ((∑ k, z k) / 1024) : ℝ) : EReal) := by
  unfold varK; rw [mean_coe]
  simp only [← EReal.coe_mul]
  rw [coe_sum, div_c1024, ← EReal.coe_sub]

/-- The two-pass variance of a real row, as a real. -/
theorem varR_coe (z : Fin 1024 → ℝ) : varR (fun k => (z k : EReal))
    = (((∑ k, (z k - (∑ k, z k) / 1024) * (z k - (∑ k, z k) / 1024)) / 1024 : ℝ) : EReal) := by
  unfold varR; rw [mean_coe]
  simp only [← EReal.coe_sub, ← EReal.coe_mul]
  rw [coe_sum, div_c1024]

/-- On a real row the two variances are one extended real, a nonnegative real. -/
theorem var_eq (z : Fin 1024 → ℝ) :
    varK (fun k => (z k : EReal)) = varR (fun k => (z k : EReal))
      ∧ ∃ v : ℝ, 0 ≤ v ∧ varR (fun k => (z k : EReal)) = (v : EReal) := by
  refine ⟨by rw [varK_coe, varR_coe, real_var], _, ?_, varR_coe z⟩
  exact div_nonneg (Finset.sum_nonneg fun k _ => mul_self_nonneg _) (by norm_num)

/-- At a positive real: a product with the reciprocal square root is the quotient by the square root. -/
theorem mul_rsqrt_eq_div_sqrt (A : EReal) {t : ℝ} (ht : 0 < t) :
    A * Ideal.rsqrt (t : EReal) = Ideal.div A (Ideal.sqrt (t : EReal)) := by
  have hs : Real.sqrt t ≠ 0 := (Real.sqrt_pos.2 ht).ne'
  have h1 : Ideal.rsqrt (t : EReal) = (((Real.sqrt t)⁻¹ : ℝ) : EReal) := by
    show (if t < 0 then ⊥ else if t = 0 then ⊤ else (((Real.sqrt t)⁻¹ : ℝ) : EReal)) = _
    rw [if_neg (not_lt.2 ht.le), if_neg ht.ne']
  have h2 : Ideal.sqrt (t : EReal) = ((Real.sqrt t : ℝ) : EReal) := by
    show (if t < 0 then ⊥ else ((Real.sqrt t : ℝ) : EReal)) = _
    rw [if_neg (not_lt.2 ht.le)]
  rw [h1, h2, Ideal.div_coe hs, one_div]

/-- The two normalised entries agree on a row of reals, whatever the entry, the scale and the shift. -/
theorem rowK_eq_rowR (y : Fin 1024 → EReal) (hy : ∀ k, ∃ r : ℝ, y k = (r : EReal)) (yj g b : EReal) :
    rowK y yj g b = rowR y yj g b := by
  choose z hz using hy
  obtain rfl : y = fun k => (z k : EReal) := funext hz
  obtain ⟨hKR, v, hv, hvR⟩ := var_eq z
  obtain ⟨e, he, hε⟩ := eps_pos
  unfold rowK rowR
  rw [hKR, hvR, hε, ← EReal.coe_add, mul_rsqrt_eq_div_sqrt _ (by positivity : 0 < v + e)]

/-- The whole results agree when every entry of x is real: each doubled row is then a row of reals. -/
theorem outK_eq_outR (x : SX.Idx → EReal) (g bt : SV.Idx → EReal) (hx : ∀ i, ∃ r : ℝ, x i = (r : EReal)) :
    outK x g bt = outR x g bt := by
  funext i
  unfold outK outR
  refine rowK_eq_rowR _ (fun k => ?_) _ _ _
  obtain ⟨r, hr⟩ := hx (ValueIdx.ix3 (i 0) (i 1) k)
  exact ⟨r + r, by unfold dblRow; rw [hr, EReal.coe_add]⟩

end Cert.LN

end
-- ==== Proof.Finite.lean ====
/-
  What the precondition gives: every entry of the input x is a real number. The precondition is a conjunction of three
  "all entries have absolute value below +∞"; its first conjunct, read at an index, says max (x i) (−x i) < ⊤, which
  rules out both infinities.
-/
import proofs.«105205_g39994735460779_cont_8to1_b_608_2_alg».proof.Pre_finite_inputs
import proofs.«105205_g39994735460779_cont_8to1_b_608_2_alg».proof.Proof.Spec
import Idealize.ShloMosaic.PureOps.Ideal
import Idealize.ShloMosaic.Lib.ReduceAll
import Idealize.ShloMosaic.Lib.ValueIdx

noncomputable section

namespace Cert.LN

open Idealize.ShloMosaic

instance : Subsingleton Cert.Pre_finite_inputs.S_.Idx := ⟨fun a b => funext fun d => d.elim0⟩

/-- An extended real whose absolute value is below +∞ is a real. -/
theorem real_of_abs_lt_top (a : EReal) (h : Ideal.cmp .olt (max a (-a)) ⊤ = 1#1) : ∃ r : ℝ, a = (r : EReal) := by
  induction a using EReal.rec with
  | bot => simp [Ideal.cmp] at h
  | coe r => exact ⟨r, rfl⟩
  | top => simp [Ideal.cmp] at h

/-- The +∞ pattern. -/
theorem ofBits_inf : Ideal.ofBits .f32 0x7F800000#32 = ⊤ := by
  simp [Ideal.ofBits, Ideal.ieee]

/-- Under the precondition every entry of x is real. -/
theorem x_real [Cert.Pre_finite_inputs.Facts] (x : FVec Ideal Cert.Pre_finite_inputs.S4x8192x1024 .f32)
    (g bt : FVec Ideal Cert.Pre_finite_inputs.S1024 .f32)
    (h : Cert.Pre_finite_inputs.fn (F := Ideal) x g bt = fun _ => 1#1) (i : Cert.Pre_finite_inputs.S4x8192x1024.Idx) :
    ∃ r : ℝ, x i = (r : EReal) := by
  have h0 := congrFun h ValueIdx.ix0
  dsimp only [Cert.Pre_finite_inputs.fn] at h0
  obtain ⟨h8, -⟩ := IntOp.andi_eq_one.1 h0
  obtain ⟨h3, -⟩ := IntOp.andi_eq_one.1 h8
  have hi := Host.reduce_andi_all _ _ _ _ _ h3 i
  apply real_of_abs_lt_top
  rw [← ofBits_inf]
  exact hi

end Cert.LN

end
-- ==== Proof.KerLayout.lean ====
/-
  Three layout facts the layer-normalisation body needs at an index, and the lane sum of a row: a vector of per-row
  values viewed as a column, a column spread along its rows, and the sum along the lanes written over the row's
  coordinates.
-/
import Idealize.ShloMosaic.Lib.ValueLayout
import Idealize.ShloMosaic.PureOps.Ideal.Laws

namespace Cert.LN.Ker

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the lanes of an `[a, b]` array, at row `p`, is the sum of that row's entries. -/
theorem laneSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext c
  apply Fin.ext
  match c with
  | ⟨0, _⟩ => rfl
  | ⟨1, _⟩ => rfl

/-- The reciprocal square root of a vector, at an index. -/
theorem rsqrt_apply {s : Shape} {φ : FTy} (x : FVec Ideal s φ) (i : s.Idx) : rsqrt x i = Ideal.rsqrt (x i) := rfl

end Cert.LN.Ker
-- ==== Proof.KerPayload.lean ====
/-
  The body's stored value at one entry of the block: entry (p, q) is the one-pass layer normalisation of row p of the
  doubled block, scaled by the q-th scale and shifted by the q-th shift.
-/
import proofs.«105205_g39994735460779_cont_8to1_b_608_2_alg».proof.Proof.Gen.KernelIdeal.Skeleton
import proofs.«105205_g39994735460779_cont_8to1_b_608_2_alg».proof.Proof.Spec
import proofs.«105205_g39994735460779_cont_8to1_b_608_2_alg».proof.Proof.KerLayout

noncomputable section

namespace Cert.LN.Ker

open Idealize.ShloMosaic Idealize.ShloMosaic.ValueIdx
open Cert.KernelIdeal

/-- The stored value at (p, q): the doubled row p has its mean and its mean of squares taken along the lanes, the
    variance is their one-pass difference, and the entry is the deviation times the reciprocal root, times the scale's
    q-th entry, plus the shift's. -/
theorem payload_apply (x0 : Vec Ideal S512x1024 .f32) (x1 x2 : Vec Ideal S1x1024 .f32) (p : Fin 512) (q : Fin 1024) :
    Gen.k0_pay1 x0 x1 x2 (ix2 p q)
      = rowK (fun k => x0 (ix2 p k) + x0 (ix2 p k)) (x0 (ix2 p q) + x0 (ix2 p q)) (x1 (ix2 (0 : Fin 1) q)) (x2 (ix2 (0 : Fin 1) q)) := by
  unfold Gen.k0_pay1
  simp only [addf_apply, mulf_apply, subf_apply, divf_apply, rsqrt_apply, broadcast_apply, shapeCast_self,
    broadcastTo_a1_ab_apply, broadcastTo_1b_ab_apply, shapeCast_a_a1_apply, Ideal.ofBits_def]
  -- the two lane sums of row p: of the doubled entries, and of their squares
  have s1 := laneSum_apply (addf x0 x0) Gen.reduces_S512x1024_S512 (Or.inl rfl) rfl p
  have s2 := laneSum_apply (mulf (addf x0 x0) (addf x0 x0)) Gen.reduces_S512x1024_S512 (Or.inl rfl) rfl p
  simp only [addf_apply, mulf_apply] at s1 s2
  dsimp only [rowK, varK, mean, c1024, eps]
  rw [← s1, ← s2]

end Cert.LN.Ker

end
-- ==== Proof.KerArrays.lean ====
/-
  The three arrays the kernel region reads, as the region finds them: each is a reshape of an argument, so each entry
  is an entry of that argument. Row r of the flattened [32768, 1024] input is row (b, s) of the [4, 8192, 1024] input
  when r = 8192 b + s; the [1, 1024] scale and shift are the [1024] scale and shift.
-/
import proofs.«105205_g39994735460779_cont_8to1_b_608_2_alg».proof.Proof.Gen.KernelIdeal.Frame
import Idealize.ShloMosaic.Lib.ValueLayout

noncomputable section

namespace Cert.LN.Ker

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The flattened input is the reshape of the first argument. -/
theorem V_main_v0_eq (c : Dev nD) :
    (V m c main_v0 : S32768x1024.Idx → EReal)
      = shapeCast S32768x1024 (m ((c : Thread nD τ).loc main_arg0) : S4x8192x1024.Idx → EReal) shapeCasts_S4x8192x1024_S32768x1024 := by
  show StableHlo.after hostOps0 (fun b => m (c, b)) (Proc.devRef .tc main_v0) = _
  after_results
  rfl

/-- The scale as a one-row array is the reshape of the second argument. -/
theorem V_main_v1_eq (c : Dev nD) :
    (V m c main_v1 : S1x1024.Idx → EReal)
      = shapeCast S1x1024 (m ((c : Thread nD τ).loc main_arg1) : S1024.Idx → EReal) shapeCasts_S1024_S1x1024 := by
  show StableHlo.after hostOps0 (fun b => m (c, b)) (Proc.devRef .tc main_v1) = _
  after_results
  rfl

/-- The shift as a one-row array is the reshape of the third argument. -/
theorem V_main_v2_eq (c : Dev nD) :
    (V m c main_v2 : S1x1024.Idx → EReal)
      = shapeCast S1x1024 (m ((c : Thread nD τ).loc main_arg2) : S1024.Idx → EReal) shapeCasts_S1024_S1x1024 := by
  show StableHlo.after hostOps0 (fun b => m (c, b)) (Proc.devRef .tc main_v2) = _
  after_results
  rfl

/-- Entry (r, q) of the flattened input is entry (b, s, q) of the argument when r = 8192 b + s. -/
theorem V_main_v0_apply (c : Dev nD) (r : Fin 32768) (q : Fin 1024) (b : Fin 4) (s : Fin 8192)
    (hr : r.val = b.val * 8192 + s.val) :
    (V m c main_v0 : S32768x1024.Idx → EReal) (ix2 r q)
      = (m ((c : Thread nD τ).loc main_arg0) : S4x8192x1024.Idx → EReal) (ix3 b s q) := by
  rw [V_main_v0_eq]
  exact shapeCast_apply _ _ _ _ (by
    show (S4x8192x1024.rowMajor (ix3 b s q)).val = (S32768x1024.rowMajor (ix2 r q)).val
    rw [Shape.rowMajor_val_three, Shape.rowMajor_val_two]
    show (b.val * 8192 + s.val) * 1024 + q.val = r.val * 1024 + q.val
    rw [hr])

/-- Entry (0, q) of the one-row scale is entry q of the argument. -/
theorem V_main_v1_apply (c : Dev nD) (u : Fin 1) (q : Fin 1024) :
    (V m c main_v1 : S1x1024.Idx → EReal) (ix2 u q) = (m ((c : Thread nD τ).loc main_arg1) : S1024.Idx → EReal) (ix1 q) := by
  rw [V_main_v1_eq]
  exact shapeCast_a_1a_apply _ _ u q

/-- Entry (0, q) of the one-row shift is entry q of the argument. -/
theorem V_main_v2_apply (c : Dev nD) (u : Fin 1) (q : Fin 1024) :
    (V m c main_v2 : S1x1024.Idx → EReal) (ix2 u q) = (m ((c : Thread nD τ).loc main_arg2) : S1024.Idx → EReal) (ix1 q) := by
  rw [V_main_v2_eq]
  exact shapeCast_a_1a_apply _ _ u q

end Cert.LN.Ker

end
-- ==== Proof.KerBlocks.lean ====
/-
  From the blocks to the array. Point t of the grid writes rows 512 t … 512 t + 511 of the [32768, 1024] result; each
  entry it writes is the one-pass layer normalisation of the corresponding row of the argument, so what it writes is
  block t of ONE function of the three arguments: the flattening of the whole result. The 64 blocks tile the rows, so
  after the run the array is that function.
-/
import proofs.«105205_g39994735460779_cont_8to1_b_608_2_alg».proof.Proof.Gen.KernelIdeal.Frame
import proofs.«105205_g39994735460779_cont_8to1_b_608_2_alg».proof.Proof.Spec
import proofs.«105205_g39994735460779_cont_8to1_b_608_2_alg».proof.Proof.KerPayload
import proofs.«105205_g39994735460779_cont_8to1_b_608_2_alg».proof.Proof.KerArrays
import Idealize.ShloMosaic.Lib.Pipeline.Value

noncomputable section

namespace Cert.LN.Ker

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- The three arguments as launched. -/
abbrev argX (c : Dev nD) : SX.Idx → EReal := m ((c : Thread nD τ).loc main_arg0)
abbrev argG (c : Dev nD) : SV.Idx → EReal := m ((c : Thread nD τ).loc main_arg1)
abbrev argB (c : Dev nD) : SV.Idx → EReal := m ((c : Thread nD τ).loc main_arg2)

/-- The result with its two leading axes flattened into one: row 8192 b + s is row (b, s) of the whole result. -/
def flat (c : Dev nD) : S32768x1024.Idx → EReal :=
  shapeCast S32768x1024 (outK (argX m c) (argG m c) (argB m c)) shapeCasts_S4x8192x1024_S32768x1024

/-- Entry (r, q) of the flattened result, for r = 8192 b + s. -/
theorem flat_apply (c : Dev nD) (r : Fin 32768) (q : Fin 1024) (b : Fin 4) (s : Fin 8192)
    (hr : r.val = b.val * 8192 + s.val) :
    flat m c (ix2 r q) = outK (argX m c) (argG m c) (argB m c) (ix3 b s q) := by
  unfold flat
  exact shapeCast_apply _ _ _ _ (by
    rw [Shape.rowMajor_val_three, Shape.rowMajor_val_two]
    show (b.val * 8192 + s.val) * 1024 + q.val = r.val * 1024 + q.val
    rw [hr])

theorem zeroOff : (![0, 0] : Fin 2 → Nat) = fun _ => 0 := funext fun a => by fin_cases a <;> rfl

/-- Where the windows sit at point t: the input block and the output block are both row-block t, the scale and the
    shift are their whole arrays. -/
theorem blockIdx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (p, k) of the input block at point t is entry (512 t + p, k) of the flattened input. -/
theorem iblk0_apply (c : Dev nD) (t : Fin cfg0.N) (p : Fin 512) (k : Fin 1024) (r : Fin 32768)
    (hr : r.val = 512 * t.val + p.val) :
    (iblk m c 0 t : Vec Ideal S512x1024 .f32) (ix2 p k) = (V m c main_v0 : S32768x1024.Idx → EReal) (ix2 r k) := by
  obtain ⟨e0, e1, -⟩ := blockIdx t
  unfold iblk
  rw [View.read_apply]
  show V m c main_v0 _ = V m c main_v0 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 1024 + 1 * k.val = k.val; rw [e1]; omega

/-- Entry (0, q) of the scale's block at any point is entry (0, q) of the one-row scale. -/
theorem iblk1_apply (c : Dev nD) (t : Fin cfg0.N) (q : Fin 1024) :
    (iblk m c 1 t : Vec Ideal S1x1024 .f32) (ix2 (0 : Fin 1) q) = (V m c main_v1 : S1x1024.Idx → EReal) (ix2 (0 : Fin 1) q) := by
  obtain ⟨-, -, e0, e1, -⟩ := blockIdx t
  unfold iblk
  rw [View.read_apply]
  show V m c main_v1 _ = V m c main_v1 _
  congr 1
  funext a
  apply Fin.ext
  match a with
  | ⟨0, _⟩ => show win0_1.index t (0 : Fin 2) * 1 + 1 * 0 = 0; rw [e0]
  | ⟨1, _⟩ => show win0_1.index t (1 : Fin 2) * 1024 + 1 * q.val = q.val; rw [e1]; omega

/-- Entry (0, q) of the shift's block at any point is entry (0, q) of the one-row shift. -/
theorem iblk2_apply (c : Dev nD) (t : Fin cfg0.N) (q : Fin 1024) :
    (iblk m c 2 t : Vec Ideal S1x1024 .f32) (ix2 (0 : Fin 1) q) = (V m c main_v2 : S1x1024.Idx → EReal) (ix2 (0 : Fin 1) q) := by
  obtain ⟨-, -, -, -, e0, e1, -⟩ := blockIdx t
  unfold iblk
  rw [View.read_apply]
  show V m c main_v2 _ = V m c main_v2 _
  congr 1
  funext a
  apply Fin.ext
  match a with
  | ⟨0, _⟩ => show win0_2.index t (0 : Fin 2) * 1 + 1 * 0 = 0; rw [e0]
  | ⟨1, _⟩ => show win0_2.index t (1 : Fin 2) * 1024 + 1 * q.val = q.val; rw [e1]; omega

/-- The body's stored value at entry (p, q) of point t's block is the flattened result at row 512 t + p. -/
theorem stored_apply (c : Dev nD) (t : Fin cfg0.N) (p : Fin 512) (q : Fin 1024) (r : Fin 32768)
    (hr : r.val = 512 * t.val + p.val) :
    k0_pay1 (iblk m c 0 t) (iblk m c 1 t) (iblk m c 2 t) (ix2 p q) = flat m c (ix2 r q) := by
  have hr' : r.val < 32768 := r.isLt
  have hbs : r.val = (⟨r.val / 8192, by omega⟩ : Fin 4).val * 8192 + (⟨r.val % 8192, by omega⟩ : Fin 8192).val := by
    show r.val = r.val / 8192 * 8192 + r.val % 8192
    omega
  refine (payload_apply (iblk m c 0 t) (iblk m c 1 t) (iblk m c 2 t) p q).trans ?_
  rw [flat_apply m c r q _ _ hbs, outK_ix3]
  have e0 : ∀ k : Fin 1024, (iblk m c 0 t : Vec Ideal S512x1024 .f32) (ix2 p k)
      = argX m c (ix3 (⟨r.val / 8192, by omega⟩ : Fin 4) (⟨r.val % 8192, by omega⟩ : Fin 8192) k) := fun k =>
    (iblk0_apply m c t p k r hr).trans (V_main_v0_apply m c r k _ _ hbs)
  have e1 : (iblk m c 1 t : Vec Ideal S1x1024 .f32) (ix2 (0 : Fin 1) q) = argG m c (ix1 q) :=
    (iblk1_apply m c t q).trans (V_main_v1_apply m c 0 q)
  have e2 : (iblk m c 2 t : Vec Ideal S1x1024 .f32) (ix2 (0 : Fin 1) q) = argB m c (ix1 q) :=
    (iblk2_apply m c t q).trans (V_main_v2_apply m c 0 q)
  unfold dblRow
  simp only [e0, e1, e2]

/-- WHAT POINT t WRITES BACK is block t of the flattened result. -/
theorem flushed_eq (c : Dev nD) (t : Fin cfg0.N) :
    (dats m 0 c).flushed 3 t = ((cfg0.win 3).blk t).view.read (Elt Ideal) (flat m c) := by
  show (cfg0.win 3).cut (grid0.coords t) ((dats m 0 c).after 3 t) = _
  rw [after0_3]
  unfold out0_3
  rw [View.canon_unit_zero zeroOff]
  simp only [View.ld_unit_zero (S := S512x1024) zeroOff, View.ld_unit_zero (S := S1x1024) zeroOff]
  funext j
  obtain ⟨p, q, rfl⟩ : ∃ (p : Fin 512) (q : Fin 1024), j = ix2 p q := ⟨j 0, j 1, eq_ix2 j⟩
  have hN : cfg0.N = 64 := N_0
  have ht : t.val < 64 := by have := t.isLt; omega
  obtain ⟨-, -, -, -, -, -, e0, e1⟩ := blockIdx t
  show k0_pay1 (iblk m c 0 t) (iblk m c 1 t) (iblk m c 2 t) (ix2 p q) = flat m c (((cfg0.win 3).blk t).view.emb (ix2 p q))
  have hemb : ((cfg0.win 3).blk t).view.emb (ix2 p q) = ix2 (⟨512 * t.val + p.val, by omega⟩ : Fin 32768) q := by
    funext a
    apply Fin.ext
    match a with
    | ⟨0, _⟩ => show win0_3.index t (0 : Fin 2) * 512 + 1 * p.val = 512 * t.val + p.val; rw [e0]; omega
    | ⟨1, _⟩ => show win0_3.index t (1 : Fin 2) * 1024 + 1 * q.val = q.val; rw [e1]; omega
  rw [hemb]
  exact stored_apply m c t p q _ rfl

/-- An index of the array is in point t's block iff each coordinate is in the block's range on its axis. -/
theorem mem_blk (t : Fin cfg0.N) (i : S32768x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v3).slice (win0_3.rect t)).set ↔ _
  rw [View.set_slice_whole, Rect.mem_set_unit]
  exact Iff.rfl

/-- Every row is in some point's block: row r is in block r / 512. -/
theorem covered (i : S32768x1024.Idx) :
    ∃ t : Fin cfg0.N, (cfg0.win 3).flush t = true ∧ i ∈ ((cfg0.win 3).blk t).view.set := by
  have hN : cfg0.N = 64 := N_0
  have hi0 : (i 0).val < 32768 := (i 0).isLt
  have hi1 : (i 1).val < 1024 := (i 1).isLt
  refine ⟨⟨(i 0).val / 512, by omega⟩, flush0_3 _, ?_⟩
  rw [mem_blk]
  obtain ⟨-, -, -, -, -, -, e0, e1⟩ := blockIdx ⟨(i 0).val / 512, by omega⟩
  intro a
  match a with
  | ⟨0, _⟩ =>
    show win0_3.index _ (0 : Fin 2) * 512 ≤ (i 0).val ∧ (i 0).val < win0_3.index _ (0 : Fin 2) * 512 + 512
    rw [e0]
    show (i 0).val / 512 * 512 ≤ (i 0).val ∧ (i 0).val < (i 0).val / 512 * 512 + 512
    omega
  | ⟨1, _⟩ =>
    show win0_3.index _ (1 : Fin 2) * 1024 ≤ (i 1).val ∧ (i 1).val < win0_3.index _ (1 : Fin 2) * 1024 + 1024
    rw [e1]
    omega

/-- THE ARRAY after the run: the flattened result. -/
theorem final (c : Dev nD) : (dats m 0 c).arrAt 3 cfg0.N = flat m c :=
  (dats m 0 c).arrAt_eq_of_cover 3 (flat m c) (fun t _ => flushed_eq m c t) covered

end Cert.LN.Ker

end
-- ==== Proof.KerRun.lean ====
/-
  The kernel's run, read: after the region the [32768, 1024] array is the flattened result, the host line after it
  un-flattens it, so the program's result is the one-pass layer normalisation of the doubled input, row by row; the
  three arguments are as launched.
-/
import proofs.«105205_g39994735460779_cont_8to1_b_608_2_alg».proof.Proof.Gen.KernelIdeal.Frame
import proofs.«105205_g39994735460779_cont_8to1_b_608_2_alg».proof.Proof.Spec
import proofs.«105205_g39994735460779_cont_8to1_b_608_2_alg».proof.Proof.KerBlocks

noncomputable section

namespace Cert.LN.Ker

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The host line after the region reshapes the flattened result back to [4, 8192, 1024]: flattening and then
    un-flattening is the identity, so the program's result is the whole result. -/
theorem tail_eq (c : Dev nD) :
    (Pipeline.afterTail₀ cfgs (dats m) 0 (V0 m) [hostOps1] c main_v4 : SX.Idx → EReal)
      = outK (argX m c) (argG m c) (argB m c) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = flat m c :=
    (Pipeline.withArrays_arr spec0 launch0.win.arr_inj c _ _ 3).trans (final m c)
  rw [e]
  funext i
  show shapeCast S4x8192x1024 (shapeCast S32768x1024 (outK (argX m c) (argG m c) (argB m c))
    shapeCasts_S4x8192x1024_S32768x1024) shapeCasts_S32768x1024_S4x8192x1024 i = _
  rw [shapeCast_shapeCast]

/-- THE KERNEL'S RUN at the ideal values: every weakly fair execution terminates, and in every final state the result
    array holds the one-pass layer normalisation of the doubled first argument, scaled by the second and shifted by the
    third, and the three arguments hold what they were launched with. -/
theorem run :
    θ_run (defs (F := Ideal)) (onTc (τ := τ) (main (F := Ideal))) ⟨m, fun _ => 0, ρ⟩ (fun r => ∀ c : Dev nD,
      r.2.mem ((c.tc : Thread _ _).loc main_v4) = outK (m ((c.tc : Thread _ _).loc main_arg0)) (m ((c.tc : Thread _ _).loc main_arg1)) (m ((c.tc : Thread _ _).loc main_arg2))
      ∧ r.2.mem ((c.tc : Thread _ _).loc main_arg0) = m ((c.tc : Thread _ _).loc main_arg0)
      ∧ r.2.mem ((c.tc : Thread _ _).loc main_arg1) = m ((c.tc : Thread _ _).loc main_arg1)
      ∧ r.2.mem ((c.tc : Thread _ _).loc main_arg2) = m ((c.tc : Thread _ _).loc main_arg2)) :=
  (θ_run defs _ _).mono (fun _ h c =>
    ⟨((h c).2 main_v4 (Pipeline.mem_restRefs_of main_v4 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.LN.Ker

end
-- ==== Proof.RefRun.lean ====
/-
  The reference's @main as one straight line of host operations, the two outlined functions' operations listed
  at their call sites over the calls' buffer records, and its run: every weakly fair execution terminates with the
  result buffer at the composed term `out` of the three argument arrays, the arguments unchanged.
  The composed term is named stage by stage (`dbl`, `rowSum`, `meanCol`, `divisor`, `varCol`, `out`) so that a
  value proof can read each stage at an index on its own.
-/
import proofs.«105205_g39994735460779_cont_8to1_b_608_2_alg».proof.Proof.Gen.ReferenceIdeal
import Idealize.ShloMosaic.Lib.StableHlo.Run

noncomputable section

namespace Cert.LN.Ref

open Cert.ReferenceIdeal Cert.ReferenceIdeal.Gen Idealize.ShloMosaic Idealize.ShloMosaic.TcCoe Idealize.SL.Sem
  Idealize.ShloMosaic.StableHlo

variable {F : FTy → Type} [FloatOps F]

/-! ## The line -/

/-- @main's forty-six operations in order: eight of its own (the doubling, the row sum and its quotient by the row
    length, the integer zero), the variance function's twenty, the selecting function's three, and @main's last
    fifteen. -/
abbrev ops : List (HloOp τ sig (Elt F)) :=
  [ binary main_arg0 main_arg0 main_v0 (addf : (⟨S4x8192x1024, .f32⟩ : BufTy).Contents (Elt F) → (⟨S4x8192x1024, .f32⟩ : BufTy).Contents (Elt F) → (⟨S4x8192x1024, .f32⟩ : BufTy).Contents (Elt F)),
    nullary main_cst (constant S_ .f32 0x00000000#32),
    binary main_v0 main_cst main_v1 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v1 main_v2 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_0 (constant S_ .f32 0x44800000#32),
    unary main_cst_0 main_v3 (broadcastInDim S4x8192x1 ![] bcast_S_S4x8192x1 : (⟨S_, .f32⟩ : BufTy).Contents (Elt F) → (⟨S4x8192x1, .f32⟩ : BufTy).Contents (Elt F)),
    binary main_v2 main_v3 main_v4 (Host.divf : (⟨S4x8192x1, .f32⟩ : BufTy).Contents (Elt F) → (⟨S4x8192x1, .f32⟩ : BufTy).Contents (Elt F) → (⟨S4x8192x1, .f32⟩ : BufTy).Contents (Elt F)),
    nullary main_c (constantI S_ 32 0#32),
    TRef.nullary main_call0.cst (constant S_ .f32 0x00000000#32),
    TRef.binary (.of main_v0) main_call0.cst main_call0.v0 (fun x v => Host.reduceAdd x v reducesTo_S4x8192x1024_S4x8192_d2 h_S_),
    TRef.unary main_call0.v0 main_call0.v1 (broadcastInDim S4x8192x1 ![0, 1] bcast_S4x8192_S4x8192x1_0_1),
    TRef.nullary main_call0.cst_0 (constant S_ .f32 0x44800000#32),
    TRef.unary main_call0.cst_0 main_call0.v2 (broadcastInDim S4x8192x1 ![] bcast_S_S4x8192x1),
    TRef.binary main_call0.v1 main_call0.v2 main_call0.v3 Host.divf,
    TRef.unary main_call0.v3 main_call0.v4 (broadcastInDim S4x8192x1024 ![0, 1, 2] bcast_S4x8192x1_S4x8192x1024_0_1_2),
    TRef.binary (.of main_v0) main_call0.v4 main_call0.v5 subf,
    TRef.binary main_call0.v5 main_call0.v5 main_call0.v6 mulf,
    TRef.unary (.of main_c) main_call0.v7 (sitofp .f32),
    TRef.nullary main_call0.cst_1 (constant S_ .f32 0x44800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S4x8192x1024_S4x8192_d2 h_S_),
    TRef.unary main_call0.v9 main_call0.v10 (broadcastInDim S4x8192x1 ![0, 1] bcast_S4x8192_S4x8192x1_0_1),
    TRef.unary main_call0.v8 main_call0.v11 (broadcastInDim S4x8192x1 ![] bcast_S_S4x8192x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S4x8192x1 ![] bcast_S_S4x8192x1),
    TRef.ternary main_call0.v13 main_call0.v12 main_call0.call0.v1 main_call0.call0.v2
      (fun p a b => select (broadcastInDim S4x8192x1 ![] bcast_S_S4x8192x1 p) a b),
    unary main_v4 main_v6 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v0 main_v6 main_v7 (subf : (⟨S4x8192x1024, .f32⟩ : BufTy).Contents (Elt F) → (⟨S4x8192x1024, .f32⟩ : BufTy).Contents (Elt F) → (⟨S4x8192x1024, .f32⟩ : BufTy).Contents (Elt F)),
    nullary main_cst_1 (constant S_ .f32 0x2B8CBCCC#32),
    unary main_cst_1 main_v8 (broadcastInDim S4x8192x1 ![] bcast_S_S4x8192x1 : (⟨S_, .f32⟩ : BufTy).Contents (Elt F) → (⟨S4x8192x1, .f32⟩ : BufTy).Contents (Elt F)),
    binary main_v5 main_v8 main_v9 (addf : (⟨S4x8192x1, .f32⟩ : BufTy).Contents (Elt F) → (⟨S4x8192x1, .f32⟩ : BufTy).Contents (Elt F) → (⟨S4x8192x1, .f32⟩ : BufTy).Contents (Elt F)),
    unary main_v9 main_v10 (Host.sqrt : (⟨S4x8192x1, .f32⟩ : BufTy).Contents (Elt F) → (⟨S4x8192x1, .f32⟩ : BufTy).Contents (Elt F)),
    unary main_v10 main_v11 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v7 main_v11 main_v12 (Host.divf : (⟨S4x8192x1024, .f32⟩ : BufTy).Contents (Elt F) → (⟨S4x8192x1024, .f32⟩ : BufTy).Contents (Elt F) → (⟨S4x8192x1024, .f32⟩ : BufTy).Contents (Elt F)),
    unary main_arg1 main_v13 (broadcastInDim S1x1x1024 ![2] bcast_S1024_S1x1x1024_2 : (⟨S1024, .f32⟩ : BufTy).Contents (Elt F) → (⟨S1x1x1024, .f32⟩ : BufTy).Contents (Elt F)),
    unary main_v13 main_v14 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v12 main_v14 main_v15 (mulf : (⟨S4x8192x1024, .f32⟩ : BufTy).Contents (Elt F) → (⟨S4x8192x1024, .f32⟩ : BufTy).Contents (Elt F) → (⟨S4x8192x1024, .f32⟩ : BufTy).Contents (Elt F)),
    unary main_arg2 main_v16 (broadcastInDim S1x1x1024 ![2] bcast_S1024_S1x1x1024_2 : (⟨S1024, .f32⟩ : BufTy).Contents (Elt F) → (⟨S1x1x1024, .f32⟩ : BufTy).Contents (Elt F)),
    unary main_v16 main_v17 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v15 main_v17 main_v18 (addf : (⟨S4x8192x1024, .f32⟩ : BufTy).Contents (Elt F) → (⟨S4x8192x1024, .f32⟩ : BufTy).Contents (Elt F) → (⟨S4x8192x1024, .f32⟩ : BufTy).Contents (Elt F)) ]

-- forty-six binds re-associated under the chain: one level of recursion per statement
set_option maxRecDepth 2048 in
/-- @main is that line: the two functions unfolded at their calls, the sequencing re-associated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., binary_bufs_sub .., unary_bufs_sub .., nullary_bufs_sub .., unary_bufs_sub ..,
    binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub ..,
    unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

/-! ## The composed term, stage by stage -/

section Stages

/-- The doubled input. -/
def dbl (x : (⟨S4x8192x1024, .f32⟩ : BufTy).Contents (Elt F)) : (⟨S4x8192x1024, .f32⟩ : BufTy).Contents (Elt F) := addf x x

/-- The sum of each row, from the zero constant. -/
def rowSum (y : (⟨S4x8192x1024, .f32⟩ : BufTy).Contents (Elt F)) : (⟨S4x8192, .f32⟩ : BufTy).Contents (Elt F) :=
  Host.reduceAdd y (constant S_ .f32 0x00000000#32) reducesTo_S4x8192x1024_S4x8192_d2 h_S_

/-- The row length in every row's one column. -/
def lenCol : (⟨S4x8192x1, .f32⟩ : BufTy).Contents (Elt F) := broadcastInDim S4x8192x1 ![] bcast_S_S4x8192x1 (constant S_ .f32 0x44800000#32)

/-- Each row's mean in its one column: the row sum over the row length. -/
def meanCol (y : (⟨S4x8192x1024, .f32⟩ : BufTy).Contents (Elt F)) : (⟨S4x8192x1, .f32⟩ : BufTy).Contents (Elt F) :=
  Host.divf (broadcastInDim S4x8192x1 ![0, 1] bcast_S4x8192_S4x8192x1_0_1 (rowSum y)) lenCol

/-- The deviations from the row's mean. -/
def devs (y : (⟨S4x8192x1024, .f32⟩ : BufTy).Contents (Elt F)) : (⟨S4x8192x1024, .f32⟩ : BufTy).Contents (Elt F) :=
  subf y (broadcastInDim S4x8192x1024 ![0, 1, 2] bcast_S4x8192x1_S4x8192x1024_0_1_2 (meanCol y))

/-- The variance's divisor: the row length less the converted integer zero. -/
def divisor : (⟨S_, .f32⟩ : BufTy).Contents (Elt F) :=
  subf (constant S_ .f32 0x44800000#32) (sitofp .f32 (constantI S_ 32 0#32))

/-- Each row's variance in its one column: the sum of the squared deviations over the divisor where the divisor is
    positive, the constant of the other branch elsewhere. -/
def varCol (y : (⟨S4x8192x1024, .f32⟩ : BufTy).Contents (Elt F)) : (⟨S4x8192x1, .f32⟩ : BufTy).Contents (Elt F) :=
  select (broadcastInDim S4x8192x1 ![] bcast_S_S4x8192x1 (cmpf .ogt (divisor (F := F)) (constant S_ .f32 0x00000000#32)))
    (Host.divf (broadcastInDim S4x8192x1 ![0, 1] bcast_S4x8192_S4x8192x1_0_1 (rowSum (mulf (devs y) (devs y))))
      (broadcastInDim S4x8192x1 ![] bcast_S_S4x8192x1 divisor))
    (broadcastInDim S4x8192x1 ![] bcast_S_S4x8192x1 (id (constant S_ .f32 0x7FC00000#32)))

/-- Each row's standard deviation in its one column: the square root of the variance plus the offset. -/
def sdCol (y : (⟨S4x8192x1024, .f32⟩ : BufTy).Contents (Elt F)) : (⟨S4x8192x1, .f32⟩ : BufTy).Contents (Elt F) :=
  Host.sqrt (addf (varCol y) (broadcastInDim S4x8192x1 ![] bcast_S_S4x8192x1 (constant S_ .f32 0x2B8CBCCC#32)))

/-- A vector over the last axis in every row. -/
def rowwise (g : (⟨S1024, .f32⟩ : BufTy).Contents (Elt F)) : (⟨S4x8192x1024, .f32⟩ : BufTy).Contents (Elt F) :=
  broadcastInDim S4x8192x1024 ![0, 1, 2] bcast_S1x1x1024_S4x8192x1024_0_1_2
    (broadcastInDim S1x1x1024 ![2] bcast_S1024_S1x1x1024_2 g)

/-- The whole result: the deviations of the doubled input over the standard deviation, scaled and shifted. -/
def out (x : (⟨S4x8192x1024, .f32⟩ : BufTy).Contents (Elt F)) (g bt : (⟨S1024, .f32⟩ : BufTy).Contents (Elt F)) : (⟨S4x8192x1024, .f32⟩ : BufTy).Contents (Elt F) :=
  addf (mulf (Host.divf (devs (dbl x))
      (broadcastInDim S4x8192x1024 ![0, 1, 2] bcast_S4x8192x1_S4x8192x1024_0_1_2 (sdCol (dbl x)))) (rowwise g)) (rowwise bt)

end Stages

/-! ## The line's fold at the result and at the arguments -/

attribute [local irreducible] Host.reduceAdd in
set_option maxRecDepth 8192 in
/-- The fold at the result buffer is `out` by computation: each operation's result decides whether the buffer read is
    the one it writes, and the typed references' casts are the identity at these literal references. The row sum is
    kept folded meanwhile: the equation never looks inside it. -/
theorem out_eq (V : Valuation τ sig (Elt F)) :
    after ops V (main_v18 : DevRef τ sig)
      = out (V (main_arg0 : DevRef τ sig)) (V (main_arg1 : DevRef τ sig)) (V (main_arg2 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

/-! ## The run -/

/-- For any float values, from any memory with zero counters: every weakly fair execution of @main terminates with
    the result buffer at `out` of the arguments' launch contents and the arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18)
          = out (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v18).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.LN.Ref

end
-- ==== Proof.RefStages.lean ====
/-
  The stages of the reference's composed term read at one index, over the extended reals: the doubled input, a row's
  sum and mean, the deviations, the divisor (the row length, which is positive, so the selecting function keeps the
  quotient), a row's variance and standard deviation, and the scale and shift read along the last axis.
-/
import proofs.«105205_g39994735460779_cont_8to1_b_608_2_alg».proof.Proof.Spec
import proofs.«105205_g39994735460779_cont_8to1_b_608_2_alg».proof.Proof.RefRun
import proofs.«105205_g39994735460779_cont_8to1_b_608_2_alg».proof.Proof.Consts
import Idealize.ShloMosaic.Lib.IdealHost
import Idealize.ShloMosaic.Lib.Pipeline.Value

noncomputable section

namespace Cert.LN.Ref

open Cert.ReferenceIdeal Cert.ReferenceIdeal.Gen Idealize.ShloMosaic Idealize.ShloMosaic.ValueIdx
open scoped BigOperators

/-! ## The row length's pattern -/

/-- The row length is positive. -/
theorem c1024_pos : (0 : EReal) < c1024 := by
  rw [c1024_eq]; exact_mod_cast (by norm_num : (0 : ℝ) < 1024)

/-! ## The layout operations at an index -/

section Layout
variable {α : Type}

/-- A row's value broadcast to the row's one column. -/
theorem rowToCol_ix (v : S4x8192.Idx → α) (b : Fin 4) (s : Fin 8192) (z : Fin 1) :
    broadcastInDim S4x8192x1 ![0, 1] bcast_S4x8192_S4x8192x1_0_1 v (ix3 b s z) = v (ix2 b s) :=
  broadcastInDim_apply _ _ v _ _ fun a => by
    match a with
    | ⟨0, _⟩ => rfl
    | ⟨1, _⟩ => rfl

/-- A column's value broadcast along the row. -/
theorem colToFull_ix (v : S4x8192x1.Idx → α) (b : Fin 4) (s : Fin 8192) (j : Fin 1024) :
    broadcastInDim S4x8192x1024 ![0, 1, 2] bcast_S4x8192x1_S4x8192x1024_0_1_2 v (ix3 b s j) = v (ix3 b s (0 : Fin 1)) :=
  broadcastInDim_apply _ _ v _ _ fun a => by
    match a with
    | ⟨0, _⟩ => rfl
    | ⟨1, _⟩ => rfl
    | ⟨2, _⟩ => rfl

/-- A vector over the last axis placed on that axis of a one-row array. -/
theorem vecToRow_ix (v : S1024.Idx → α) (p q : Fin 1) (j : Fin 1024) :
    broadcastInDim S1x1x1024 ![2] bcast_S1024_S1x1x1024_2 v (ix3 p q j) = v (ix1 j) :=
  broadcastInDim_apply _ _ v _ _ fun a => by
    match a with
    | ⟨0, _⟩ => rfl

/-- A one-row array repeated over every row. -/
theorem rowToFull_ix (v : S1x1x1024.Idx → α) (b : Fin 4) (s : Fin 8192) (j : Fin 1024) :
    broadcastInDim S4x8192x1024 ![0, 1, 2] bcast_S1x1x1024_S4x8192x1024_0_1_2 v (ix3 b s j)
      = v (ix3 (0 : Fin 1) (0 : Fin 1) j) :=
  broadcastInDim_apply _ _ v _ _ fun a => by
    match a with
    | ⟨0, _⟩ => rfl
    | ⟨1, _⟩ => rfl
    | ⟨2, _⟩ => rfl

end Layout

/-! ## The stages -/

/-- The doubled input at an index. -/
theorem dbl_ix (x : SX.Idx → EReal) (b : Fin 4) (s : Fin 8192) (j : Fin 1024) :
    dbl (F := Ideal) x (ix3 b s j) = x (ix3 b s j) + x (ix3 b s j) := rfl

/-- A row's sum is the sum over the row's coordinates. -/
theorem rowSum_ix (y : SX.Idx → EReal) (b : Fin 4) (s : Fin 8192) :
    rowSum (F := Ideal) y (ix2 b s) = ∑ k : Fin 1024, y (ix3 b s k) := by
  unfold rowSum
  have h : S4x8192x1024.Reduces [2] S4x8192 := by decide
  rw [hostReduceAdd_apply, Ideal.hostReduceAdd_single _ h, constant_apply, Ideal.ofBits_zero_f32, zero_add]
  refine Finset.sum_congr rfl fun k _ => congrArg y ?_
  funext a
  match a with
  | ⟨0, _⟩ => exact Fin.ext rfl
  | ⟨1, _⟩ => exact Fin.ext rfl
  | ⟨2, _⟩ => exact Fin.ext rfl

/-- The row length in a column. -/
theorem lenCol_ix (i : S4x8192x1.Idx) : lenCol (F := Ideal) i = c1024 := by
  unfold lenCol
  rw [broadcastInDim_scalar_apply, constant_apply]
  rfl

/-- A row's mean, in the row's one column. -/
theorem meanCol_ix (y : SX.Idx → EReal) (b : Fin 4) (s : Fin 8192) (z : Fin 1) :
    meanCol (F := Ideal) y (ix3 b s z) = mean fun k => y (ix3 b s k) := by
  unfold meanCol
  rw [hostDivf_apply, lenCol_ix, rowToCol_ix, rowSum_ix]
  rfl

/-- The deviation from the row's mean at an index. -/
theorem devs_ix (y : SX.Idx → EReal) (b : Fin 4) (s : Fin 8192) (j : Fin 1024) :
    devs (F := Ideal) y (ix3 b s j) = y (ix3 b s j) - mean fun k => y (ix3 b s k) := by
  unfold devs
  rw [subf_apply, colToFull_ix, meanCol_ix]

/-- The divisor is the row length: the converted integer zero is zero. -/
theorem divisor_val : divisor (F := Ideal) ix0 = c1024 := by
  unfold divisor
  rw [subf_apply, constant_apply, sitofp_apply]
  have h0 : FloatOps.sitofp (F := Ideal) .f32 (constantI S_ 32 0#32 ix0) = 0 := by
    show (((0#32 : BitVec 32).toInt : ℝ) : EReal) = 0
    simp
  rw [h0, sub_zero]
  rfl

/-- The comparison "the divisor is positive" holds. -/
theorem divisor_pos_bit :
    cmpf .ogt (divisor (F := Ideal)) (constant (F := Ideal) S_ .f32 0x00000000#32) ix0 = 1#1 := by
  rw [cmpf_apply, divisor_val, constant_apply, Ideal.ofBits_zero_f32]
  show Ideal.cmp .ogt c1024 0 = 1#1
  simp [Ideal.cmp, c1024_pos]

/-- A row's variance, in the row's one column: the selecting function keeps the quotient. -/
theorem varCol_ix (y : SX.Idx → EReal) (b : Fin 4) (s : Fin 8192) (z : Fin 1) :
    varCol (F := Ideal) y (ix3 b s z) = varR fun k => y (ix3 b s k) := by
  unfold varCol
  rw [select_apply, broadcastInDim_scalar_apply, divisor_pos_bit, select_one, hostDivf_apply, rowToCol_ix, rowSum_ix,
    broadcastInDim_scalar_apply, divisor_val]
  unfold varR
  refine congrArg (Ideal.div · c1024) (Finset.sum_congr rfl fun k _ => ?_)
  rw [mulf_apply, devs_ix]

/-- A row's standard deviation, in the row's one column. -/
theorem sdCol_ix (y : SX.Idx → EReal) (b : Fin 4) (s : Fin 8192) (z : Fin 1) :
    sdCol (F := Ideal) y (ix3 b s z) = Ideal.sqrt ((varR fun k => y (ix3 b s k)) + eps) := by
  unfold sdCol
  show FloatOps.hostUnary .sqrt _ = _
  rw [Ideal.hostUnary_sqrt_def, addf_apply, varCol_ix, broadcastInDim_scalar_apply, constant_apply]
  rfl

/-- The scale, or the shift, at an index is its entry for the column. -/
theorem rowwise_ix (g : SV.Idx → EReal) (b : Fin 4) (s : Fin 8192) (j : Fin 1024) :
    rowwise (F := Ideal) g (ix3 b s j) = g (ix1 j) := by
  unfold rowwise
  rw [rowToFull_ix, vecToRow_ix]

end Cert.LN.Ref

end
-- ==== Proof.RefValue.lean ====
/-
  The reference's composed term is the two-pass layer normalisation of the doubled rows, index by index; so its run
  ends with the result buffer at that function of the three argument arrays, the arguments unchanged.
-/
import proofs.«105205_g39994735460779_cont_8to1_b_608_2_alg».proof.Proof.Spec
import proofs.«105205_g39994735460779_cont_8to1_b_608_2_alg».proof.Proof.RefRun
import proofs.«105205_g39994735460779_cont_8to1_b_608_2_alg».proof.Proof.RefStages

noncomputable section

namespace Cert.LN.Ref

open Cert.ReferenceIdeal Cert.ReferenceIdeal.Gen Idealize.ShloMosaic Idealize.ShloMosaic.ValueIdx Idealize.ShloMosaic.TcCoe
  Idealize.SL.Sem Idealize.ShloMosaic.StableHlo

/-- The composed term at an index: the deviation of the doubled entry from its row's mean, over the square root of the
    row's variance plus the offset, times the column's scale, plus the column's shift. -/
theorem out_ix (x : SX.Idx → EReal) (g bt : SV.Idx → EReal) (b : Fin 4) (s : Fin 8192) (j : Fin 1024) :
    out (F := Ideal) x g bt (ix3 b s j) = outR x g bt (ix3 b s j) := by
  rw [outR_ix3]
  unfold out rowR
  rw [addf_apply, mulf_apply, hostDivf_apply, devs_ix, colToFull_ix, sdCol_ix, rowwise_ix, rowwise_ix]
  rfl

/-- The composed term is the two-pass layer normalisation of the doubled rows. -/
theorem out_eq_outR (x : SX.Idx → EReal) (g bt : SV.Idx → EReal) : out (F := Ideal) x g bt = outR x g bt := by
  funext i
  obtain ⟨b, s, j, rfl⟩ : ∃ (b : Fin 4) (s : Fin 8192) (j : Fin 1024), i = ix3 b s j := ⟨i 0, i 1, i 2, eq_ix3 i⟩
  exact out_ix x g bt b s j

/-- From any memory with zero counters, every weakly fair execution of the reference's @main terminates with the
    result buffer at the two-pass layer normalisation of the doubled rows of the first argument, scaled by the second
    and shifted by the third, and the three arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread _ _).loc Cert.ReferenceIdeal.main_v18)
            = Cert.LN.outR (m ((c.tc : Thread _ _).loc Cert.ReferenceIdeal.main_arg0))
                (m ((c.tc : Thread _ _).loc Cert.ReferenceIdeal.main_arg1))
                (m ((c.tc : Thread _ _).loc Cert.ReferenceIdeal.main_arg2))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)
        ∧ r.2.mem ((c.tc : Thread _ _).loc Cert.ReferenceIdeal.main_arg2) = m ((c.tc : Thread _ _).loc Cert.ReferenceIdeal.main_arg2)) :=
  (θ_run _ _ _).mono (fun _ h c => ⟨(h c).1.trans (out_eq_outR _ _ _), (h c).2⟩) (run_out (F := Ideal) m ρ)

end Cert.LN.Ref

end
-- ==== Proof.lean ====
/-
  Layer normalisation of the doubled input, y = x + x, row by row over rows of 1024 entries:
  the kernel computes (y − μ) · rsqrt(E[y²] − μ² + ε) · γ + β in one pass over each block of 512 rows, the reference
  (y − μ) / √(E[(y − μ)²] + ε) · γ + β in two passes over the whole array, with the same mean μ, the same row length
  1024 and the same offset ε on both sides.

  At the ideal instance both are functions of the three argument arrays on the extended reals. Under the precondition
  every entry of x is real, so each doubled row is a row of reals; there the two variances are one nonnegative real
  (expand the square and use Σ y = 1024 μ), the offset makes it positive, and at a positive real the product with the
  reciprocal square root is the quotient by the square root. Nothing is asked of γ and β, which both sides apply alike.
  The frames of the two kernel programs are the generated ones; the reference's frame is its run with the result dropped.
-/
import proofs.«105205_g39994735460779_cont_8to1_b_608_2_alg».proof.Defs
import proofs.«105205_g39994735460779_cont_8to1_b_608_2_alg».proof.Proof.Gen.Kernel.Frame
import proofs.«105205_g39994735460779_cont_8to1_b_608_2_alg».proof.Proof.Gen.KernelIdeal.Frame
import proofs.«105205_g39994735460779_cont_8to1_b_608_2_alg».proof.Proof.Gen.ReferenceIdeal
import proofs.«105205_g39994735460779_cont_8to1_b_608_2_alg».proof.Proof.Gen.Pre_finite_inputs
import proofs.«105205_g39994735460779_cont_8to1_b_608_2_alg».proof.Proof.RowLaw
import proofs.«105205_g39994735460779_cont_8to1_b_608_2_alg».proof.Proof.Finite
import proofs.«105205_g39994735460779_cont_8to1_b_608_2_alg».proof.Proof.KerRun
import proofs.«105205_g39994735460779_cont_8to1_b_608_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs to its result and leaves its arguments alone; the frame keeps the second half. -/
theorem frame_ri : Cert.frame_ReferenceIdeal := fun m ρ _ =>
  (θ_run Cert.ReferenceIdeal.defs _ _).mono (fun _ h c => (h c).2) (Cert.LN.Ref.run m ρ)

/-- The ideal pass rewrote nothing. -/
theorem preserves : Cert.preserves_Kernel_KernelIdeal := trivial

/-- Both programs end with the one-pass function of the kernel's arguments: the kernel by its run, the reference by its
    run at arguments that agree and the row law on real rows. -/
theorem algebraic : Cert.algebraic_KernelIdeal_ReferenceIdeal := by
  intro m ρ m' ρ' hpre hagree
  refine ⟨_, Cert.LN.Ker.run m ρ, ?_⟩
  refine (θ_run Cert.ReferenceIdeal.defs _ _).mono (fun _ h c => ⟨(h c).1.trans ?_, (h c).2⟩) (Cert.LN.Ref.run m' ρ')
  rw [(hagree c).1, (hagree c).2.1, (hagree c).2.2]
  exact (Cert.LN.outK_eq_outR _ _ _ (Cert.LN.x_real _ _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
